-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S625000x128 : Shape := ⟨2, ![625000, 128]⟩
abbrev S2x625000 : Shape := ⟨2, ![2, 625000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000x128 : S_.BroadcastsInDim S625000x128 (![] : Fin 0 → Fin S625000x128.rank)
  reducesTo_S625000x128_S_d0_1 : S625000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S625000x128 .f32) (main_arg2 : IVec S2x625000 32) (main_arg3 : FVec F S256x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000x128 .f32 := Host.absf main_arg1
  let main_cst_0 : FVec F S_ .f32 := constant S_ .f32 0x7F800000#32
  let main_v5 : FVec F S625000x128 .f32 := broadcastInDim S625000x128 ![] bcast_S_S625000x128 main_cst_0
  let main_v6 : IVec S625000x128 1 := cmpf .olt main_v4 main_v5
  let main_c_1 : IVec S_ 1 := constantI S_ 1 1#1
  let main_v7 : IVec S_ 1 := (fun x v => Host.reduce IntOp.andi x v reducesTo_S625000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S625000x128 : Shape := ⟨2, ![625000, 128]⟩
abbrev S2x625000 : Shape := ⟨2, ![2, 625000]⟩
abbrev S256x128 : Shape := ⟨2, ![256, 128]⟩
abbrev S128 : Shape := ⟨1, ![128]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S5000x128 : Shape := ⟨2, ![5000, 128]⟩
abbrev S5000x256 : Shape := ⟨2, ![5000, 256]⟩
abbrev S1x128 : Shape := ⟨2, ![1, 128]⟩

abbrev nBuf : Space → Nat
  | .hbm => 30
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S625000x128, .f32⟩
  | .hbm, ⟨2, _⟩ => ⟨S2x625000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x625000, .i32⟩
  | .hbm, ⟨12, _⟩ => ⟨S625000, .i32⟩
  | .hbm, ⟨13, _⟩ => ⟨S1x625000, .i32⟩
  | .hbm, ⟨14, _⟩ => ⟨S625000, .i32⟩
  | .hbm, ⟨15, _⟩ => ⟨S_, .i32⟩
  | .hbm, ⟨16, _⟩ => ⟨S625000, .i32⟩
  | .hbm, ⟨17, _⟩ => ⟨S625000, .i1⟩
  | .hbm, ⟨18, _⟩ => ⟨S_, .i32⟩
  | .hbm, ⟨19, _⟩ => ⟨S625000, .i32⟩
  | .hbm, ⟨20, _⟩ => ⟨S625000, .i32⟩
  | .hbm, ⟨21, _⟩ => ⟨S625000, .i32⟩
  | .hbm, ⟨22, _⟩ => ⟨S625000x1, .i32⟩
  | .hbm, ⟨23, _⟩ => ⟨S625000x128, .f32⟩
  | .hbm, ⟨24, _⟩ => ⟨S625000x128, .f32⟩
  | .hbm, ⟨25, _⟩ => ⟨S_, .f32⟩
  | .hbm, ⟨26, _⟩ => ⟨S50000x128, .f32⟩
  | .hbm, ⟨27, _⟩ => ⟨S625000x1, .i32⟩
  | .hbm, ⟨28, _⟩ => ⟨S50000x128, .f32⟩
  | .hbm, ⟨29, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S256x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  gather_S50000x128_S625000x1_S625000x128_1_0_n_n_0_1_1128_wf : GatherDims.WF S50000x128 S625000x1 S625000x128 [1] [0] [] [0] [] 1 ![1, 128]
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  scatter_S50000x128_S625000x1_S625000x128_1_0_0_1_wf : ScatterDims.WF S50000x128 S625000x1 S625000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S625000x128.size a
  hwx0_0 : ∀ i : grid0.Coords, EltTy.bits .f32 = 32 ∨ (Rect.block (s := S625000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S625000x128.size a
  hwx0_1 : ∀ i : grid0.Coords, EltTy.bits .f32 = 32 ∨ (Rect.block (s := S625000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S625000x128.size a
  hwx0_6 : ∀ i : grid0.Coords, EltTy.bits .f32 = 32 ∨ (Rect.block (s := S625000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S625000x128 : Shape := ⟨2, ![625000, 128]⟩
abbrev S2x625000 : Shape := ⟨2, ![2, 625000]⟩
abbrev S256x128 : Shape := ⟨2, ![256, 128]⟩
abbrev S128 : Shape := ⟨1, ![128]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x256 : Shape := ⟨2, ![625000, 256]⟩
abbrev S1x128 : Shape := ⟨2, ![1, 128]⟩
abbrev S50000x256 : Shape := ⟨2, ![50000, 256]⟩

abbrev nBuf : Space → Nat
  | .hbm => 55
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S625000x128, .f32⟩
  | .hbm, ⟨2, _⟩ => ⟨S2x625000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x625000, .i32⟩
  | .hbm, ⟨12, _⟩ => ⟨S625000, .i32⟩
  | .hbm, ⟨13, _⟩ => ⟨S1x625000, .i32⟩
  | .hbm, ⟨14, _⟩ => ⟨S625000, .i32⟩
  | .hbm, ⟨15, _⟩ => ⟨S_, .i32⟩
  | .hbm, ⟨16, _⟩ => ⟨S625000, .i32⟩
  | .hbm, ⟨17, _⟩ => ⟨S625000, .i1⟩
  | .hbm, ⟨18, _⟩ => ⟨S_, .i32⟩
  | .hbm, ⟨19, _⟩ => ⟨S625000, .i32⟩
  | .hbm, ⟨20, _⟩ => ⟨S625000, .i32⟩
  | .hbm, ⟨21, _⟩ => ⟨S625000, .i32⟩
  | .hbm, ⟨22, _⟩ => ⟨S625000x1, .i32⟩
  | .hbm, ⟨23, _⟩ => ⟨S625000x128, .f32⟩
  | .hbm, ⟨24, _⟩ => ⟨S_, .f32⟩
  | .hbm, ⟨25, _⟩ => ⟨S625000x128, .f32⟩
  | .hbm, ⟨26, _⟩ => ⟨S625000x128, .f32⟩
  | .hbm, ⟨27, _⟩ => ⟨S625000x256, .f32⟩
  | .hbm, ⟨28, _⟩ => ⟨S625000x128, .f32⟩
  | .hbm, ⟨29, _⟩ => ⟨S1x128, .f32⟩
  | .hbm, ⟨30, _⟩ => ⟨S625000x128, .f32⟩
  | .hbm, ⟨31, _⟩ => ⟨S625000x128, .f32⟩
  | .hbm, ⟨32, _⟩ => ⟨S_, .f32⟩
  | .hbm, ⟨33, _⟩ => ⟨S625000x128, .f32⟩
  | .hbm, ⟨34, _⟩ => ⟨S625000x128, .f32⟩
  | .hbm, ⟨35, _⟩ => ⟨S625000x128, .f32⟩
  | .hbm, ⟨36, _⟩ => ⟨S1x128, .f32⟩
  | .hbm, ⟨37, _⟩ => ⟨S625000x128, .f32⟩
  | .hbm, ⟨38, _⟩ => ⟨S625000x128, .f32⟩
  | .hbm, ⟨39, _⟩ => ⟨S_, .f32⟩
  | .hbm, ⟨40, _⟩ => ⟨S50000x128, .f32⟩
  | .hbm, ⟨41, _⟩ => ⟨S625000x1, .i32⟩
  | .hbm, ⟨42, _⟩ => ⟨S50000x128, .f32⟩
  | .hbm, ⟨43, _⟩ => ⟨S50000x256, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S625000x128 : S_.BroadcastsInDim S625000x128 (![] : Fin 0 → Fin S625000x128.rank)
  concatenates_S625000x128_S625000x128_S625000x256_d1 : Shape.Concatenates [S625000x128, S625000x128] S625000x256 1
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  dot_S625000x256_S256x128_S625000x128_1_0_0_1_n_n_wf : DotDims.WF S625000x256 S256x128 S625000x128 [1] [0] [0] [1] [] []
  dot_S625000x128_S128x128_S625000x128_1_0_0_1_n_n_wf : DotDims.WF S625000x128 S128x128 S625000x128 [1] [0] [0] [1] [] []
  scatter_S50000x128_S625000x1_S625000x128_1_0_0_1_wf : ScatterDims.WF S50000x128 S625000x1 S625000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S625000x256_S256x128_S625000x128_1_0_0_1_n_n : DotDims S625000x256 S256x128 S625000x128 where
  lhsContracting := [1]
  rhsContracting := [0]
  lhsNonContracting := [0]
  rhsNonContracting := [1]
  lhsBatch := []
  rhsBatch := []
  wf := dot_S625000x256_S256x128_S625000x128_1_0_0_1_n_n_wf
def dot_S625000x128_S128x128_S625000x128_1_0_0_1_n_n : DotDims S625000x128 S128x128 S625000x128 where
  lhsContracting := [1]
  rhsContracting := [0]
  lhsNonContracting := [0]
  rhsNonContracting := [1]
  lhsBatch := []
  rhsBatch := []
  wf := dot_S625000x128_S128x128_S625000x128_1_0_0_1_n_n_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.TwoLayer.lean ====
/-
  A two-layer perceptron applied to every row of the concatenation [x | y].

  For row r the layer input is the 256-vector  c(r, ·) = (x(r, ·), y(r, ·));  the output at column q is
      Σ_k max( Σ_l c(r, l) · W1(l, k) + b1(k), 0 ) · W2(k, q)  +  b2(q)
  on the extended reals.  The output row depends on row r of x and y only, so a block of consecutive rows of the
  whole-array result is the same function of the corresponding blocks of x and y.  Both the tiled form (matrix-unit
  products into a zero accumulator, operands passed through a format change that is the identity on the extended reals,
  bias as a one-row matrix broadcast down the rows) and the whole-array form (host contractions, bias laid along the
  second axis) are this function: a product with plain dimension numbers is the finite sum over the contracted axis.
-/
import Idealize.ShloMosaic.PureOps.Ideal.Laws
import Idealize.ShloMosaic.Lib.ValueIdx
import Idealize.ShloMosaic.Lib.Pipeline.Value
import proofs.«176255_j51874615001132_1_alg».proof.Proof.LibPlainDot

noncomputable section

namespace Cert.TwoLayer

open Idealize.ShloMosaic Idealize.ShloMosaic.ValueIdx Cert.LibPlainDot

variable {M : Nat}

/-- Row r of [x | y]: the first 128 entries are x's row, the last 128 are y's. -/
def catRow (x y : (⟨2, ![M, 128]⟩ : Shape).Idx → EReal) (r : Fin M) (l : Fin 256) : EReal :=
  if h : l.val < 128 then x (ix2 r ⟨l.val, h⟩) else y (ix2 r ⟨l.val - 128, by have := l.isLt; omega⟩)

/-- One input row through the two layers, at output column q. -/
def rowOut (xr : Fin 256 → EReal) (W1 : (⟨2, ![256, 128]⟩ : Shape).Idx → EReal) (b1 : (⟨1, ![128]⟩ : Shape).Idx → EReal)
    (W2 : (⟨2, ![128, 128]⟩ : Shape).Idx → EReal) (b2 : (⟨1, ![128]⟩ : Shape).Idx → EReal) (q : Fin 128) : EReal :=
  (∑ k : Fin 128, max ((∑ l : Fin 256, xr l * W1 (ix2 l k)) + b1 (ix1 k)) 0 * W2 (ix2 k q)) + b2 (ix1 q)

/-- The whole array: every row of [x | y] through the two layers. -/
def mlp (x y : (⟨2, ![M, 128]⟩ : Shape).Idx → EReal) (W1 : (⟨2, ![256, 128]⟩ : Shape).Idx → EReal) (b1 : (⟨1, ![128]⟩ : Shape).Idx → EReal)
    (W2 : (⟨2, ![128, 128]⟩ : Shape).Idx → EReal) (b2 : (⟨1, ![128]⟩ : Shape).Idx → EReal) : (⟨2, ![M, 128]⟩ : Shape).Idx → EReal :=
  fun j => rowOut (catRow x y (j 0)) W1 b1 W2 b2 (j 1)

theorem mlp_apply (x y : (⟨2, ![M, 128]⟩ : Shape).Idx → EReal) (W1 : (⟨2, ![256, 128]⟩ : Shape).Idx → EReal) (b1 : (⟨1, ![128]⟩ : Shape).Idx → EReal)
    (W2 : (⟨2, ![128, 128]⟩ : Shape).Idx → EReal) (b2 : (⟨1, ![128]⟩ : Shape).Idx → EReal) (p : Fin M) (q : Fin 128) :
    mlp x y W1 b1 W2 b2 (ix2 p q) = rowOut (catRow x y p) W1 b1 W2 b2 q := rfl

/-- The output row is a function of the input rows: where rows p of (x, y) are rows r of (X, Y), the outputs agree. -/
theorem mlp_rows {R : Nat} (x y : (⟨2, ![R, 128]⟩ : Shape).Idx → EReal) (X Y : (⟨2, ![M, 128]⟩ : Shape).Idx → EReal)
    (W1 : (⟨2, ![256, 128]⟩ : Shape).Idx → EReal) (b1 : (⟨1, ![128]⟩ : Shape).Idx → EReal)
    (W2 : (⟨2, ![128, 128]⟩ : Shape).Idx → EReal) (b2 : (⟨1, ![128]⟩ : Shape).Idx → EReal) (p : Fin R) (r : Fin M) (q : Fin 128)
    (hx : ∀ l : Fin 128, x (ix2 p l) = X (ix2 r l)) (hy : ∀ l : Fin 128, y (ix2 p l) = Y (ix2 r l)) :
    mlp x y W1 b1 W2 b2 (ix2 p q) = mlp X Y W1 b1 W2 b2 (ix2 r q) := by
  rw [mlp_apply, mlp_apply]
  have hc : catRow x y p = catRow X Y r := by
    funext l
    unfold catRow
    split
    · exact hx _
    · exact hy _
  rw [hc]

/-- THE JOINING LAW. An array computed in stages — a concatenation read as the joined rows, a product that is the sum
    over the 256 joined entries, a bias that is b1 at the column, a zero, the maximum of the biased product and the zero,
    a second product that is the sum over the 128 hidden entries, a bias that is b2 at the column, their sum — is the
    two-layer function. -/
theorem of_parts (x y : (⟨2, ![M, 128]⟩ : Shape).Idx → EReal) (W1 : (⟨2, ![256, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (cat : (⟨2, ![M, 256]⟩ : Shape).Idx → EReal) (P1 B1 Z H P2 B2 out : (⟨2, ![M, 128]⟩ : Shape).Idx → EReal)
    (hcat : ∀ (p : Fin M) (l : Fin 256), cat (ix2 p l) = catRow x y p l)
    (hP1 : ∀ (p : Fin M) (k : Fin 128), P1 (ix2 p k) = ∑ l : Fin 256, cat (ix2 p l) * W1 (ix2 l k))
    (hB1 : ∀ (p : Fin M) (k : Fin 128), B1 (ix2 p k) = b1 (ix1 k))
    (hZ : ∀ j, Z j = 0)
    (hH : ∀ j, H j = max (P1 j + B1 j) (Z j))
    (hP2 : ∀ (p : Fin M) (q : Fin 128), P2 (ix2 p q) = ∑ k : Fin 128, H (ix2 p k) * W2 (ix2 k q))
    (hB2 : ∀ (p : Fin M) (q : Fin 128), B2 (ix2 p q) = b2 (ix1 q))
    (hout : ∀ j, out j = P2 j + B2 j) :
    out = mlp x y W1 b1 W2 b2 := by
  funext j
  obtain ⟨p, q, rfl⟩ : ∃ (p : Fin M) (q : Fin 128), j = ix2 p q := ⟨j 0, j 1, eq_ix2 j⟩
  rw [hout, hP2, hB2, mlp_apply]
  unfold rowOut
  refine congrArg (· + b2 (ix1 q)) (Finset.sum_congr rfl fun k _ => ?_)
  refine congrArg (· * W2 (ix2 k q)) ?_
  rw [hH, hP1, hB1, hZ]
  refine congrArg (fun s => max (s + b1 (ix1 k)) 0) (Finset.sum_congr rfl fun l _ => ?_)
  rw [hcat]

/-- Two arrays of M rows joined along the second axis, at (p, l): the joined row. -/
theorem concat_apply (x y : (⟨2, ![M, 128]⟩ : Shape).Idx → EReal)
    (h : Shape.Concatenates [(⟨2, ![M, 128]⟩ : Shape), ⟨2, ![M, 128]⟩] ⟨2, ![M, 256]⟩ 1) (p : Fin M) (l : Fin 256) :
    concatenate ⟨2, ![M, 256]⟩ 1 [⟨⟨2, ![M, 128]⟩, x⟩, ⟨⟨2, ![M, 128]⟩, y⟩] h (ix2 p l) = catRow x y p l := by
  unfold catRow
  split
  · rename_i hl
    exact concatenate_pair_apply_left 1 x y h (ix2 p l) rfl (ix2 p ⟨l.val, hl⟩) (fun b => by
      match b with
      | ⟨0, _⟩ => rfl
      | ⟨1, _⟩ => rfl)
  · rename_i hl
    exact concatenate_pair_apply_right 1 x y h (ix2 p l) rfl rfl (ix2 p ⟨l.val - 128, by have := l.isLt; omega⟩) (fun b hb => by
      match b with
      | ⟨0, _⟩ => rfl
      | ⟨1, _⟩ => exact absurd rfl hb) (by
      show (l.val - 128) + 128 = l.val
      omega)

/-- The tiled form: matrix-unit products into the zero accumulator with the operands passed through the narrower
    format, the bias a one-row matrix broadcast down the rows, the zero a splat scalar. -/
theorem tile_eq (x y : FVec Ideal ⟨2, ![M, 128]⟩ .f32) (W1 : FVec Ideal ⟨2, ![256, 128]⟩ .f32) (b1 : FVec Ideal ⟨1, ![128]⟩ .f32)
    (W2 : FVec Ideal ⟨2, ![128, 128]⟩ .f32) (b2 : FVec Ideal ⟨1, ![128]⟩ .f32)
    (hcat : Shape.Concatenates [(⟨2, ![M, 128]⟩ : Shape), ⟨2, ![M, 128]⟩] ⟨2, ![M, 256]⟩ 1)
    (hlt : FTy.bits .bf16 < FTy.bits .f32)
    (h1 : (⟨1, ![128]⟩ : Shape).ShapeCasts ⟨2, ![1, 128]⟩) (h2 : (⟨2, ![1, 128]⟩ : Shape).Broadcasts ⟨2, ![M, 128]⟩) :
    addf (matmul (DotDims.plain M 128 128) none
        (truncf .bf16 (maximumf (addf (matmul (DotDims.plain M 256 128) none
            (truncf .bf16 (concatenate ⟨2, ![M, 256]⟩ 1 [⟨⟨2, ![M, 128]⟩, x⟩, ⟨⟨2, ![M, 128]⟩, y⟩] hcat) hlt) (truncf .bf16 W1 hlt)
            (constant ⟨2, ![M, 128]⟩ .f32 0x00000000#32))
          (broadcastTo ⟨2, ![M, 128]⟩ (shapeCast ⟨2, ![1, 128]⟩ b1 h1) h2))
          (broadcast ⟨2, ![M, 128]⟩ (Scalar.ofBits (F := Ideal) .f32 0x00000000#32))) hlt)
        (truncf .bf16 W2 hlt) (constant ⟨2, ![M, 128]⟩ .f32 0x00000000#32))
      (broadcastTo ⟨2, ![M, 128]⟩ (shapeCast ⟨2, ![1, 128]⟩ b2 h1) h2)
    = mlp x y W1 b1 W2 b2 :=
  of_parts x y W1 b1 W2 b2
    (cat := concatenate ⟨2, ![M, 256]⟩ 1 [⟨⟨2, ![M, 128]⟩, x⟩, ⟨⟨2, ![M, 128]⟩, y⟩] hcat)
    (P1 := matmul (DotDims.plain M 256 128) none
      (truncf .bf16 (concatenate ⟨2, ![M, 256]⟩ 1 [⟨⟨2, ![M, 128]⟩, x⟩, ⟨⟨2, ![M, 128]⟩, y⟩] hcat) hlt) (truncf .bf16 W1 hlt)
      (constant ⟨2, ![M, 128]⟩ .f32 0x00000000#32))
    (B1 := broadcastTo ⟨2, ![M, 128]⟩ (shapeCast ⟨2, ![1, 128]⟩ b1 h1) h2)
    (Z := broadcast ⟨2, ![M, 128]⟩ (Scalar.ofBits (F := Ideal) .f32 0x00000000#32))
    (H := maximumf (addf (matmul (DotDims.plain M 256 128) none
        (truncf .bf16 (concatenate ⟨2, ![M, 256]⟩ 1 [⟨⟨2, ![M, 128]⟩, x⟩, ⟨⟨2, ![M, 128]⟩, y⟩] hcat) hlt) (truncf .bf16 W1 hlt)
        (constant ⟨2, ![M, 128]⟩ .f32 0x00000000#32))
      (broadcastTo ⟨2, ![M, 128]⟩ (shapeCast ⟨2, ![1, 128]⟩ b1 h1) h2))
      (broadcast ⟨2, ![M, 128]⟩ (Scalar.ofBits (F := Ideal) .f32 0x00000000#32)))
    (P2 := matmul (DotDims.plain M 128 128) none
      (truncf .bf16 (maximumf (addf (matmul (DotDims.plain M 256 128) none
          (truncf .bf16 (concatenate ⟨2, ![M, 256]⟩ 1 [⟨⟨2, ![M, 128]⟩, x⟩, ⟨⟨2, ![M, 128]⟩, y⟩] hcat) hlt) (truncf .bf16 W1 hlt)
          (constant ⟨2, ![M, 128]⟩ .f32 0x00000000#32))
        (broadcastTo ⟨2, ![M, 128]⟩ (shapeCast ⟨2, ![1, 128]⟩ b1 h1) h2))
        (broadcast ⟨2, ![M, 128]⟩ (Scalar.ofBits (F := Ideal) .f32 0x00000000#32))) hlt)
      (truncf .bf16 W2 hlt) (constant ⟨2, ![M, 128]⟩ .f32 0x00000000#32))
    (B2 := broadcastTo ⟨2, ![M, 128]⟩ (shapeCast ⟨2, ![1, 128]⟩ b2 h1) h2)
    (out := _)
    (fun p l => concat_apply x y hcat p l)
    (fun p k => matmul_plain_zero none _ _ (ix2 p k))
    (fun p k => rowBroadcastTo_apply b1 h1 h2 p k)
    (fun _ => Ideal.ofBits_zero_f32)
    (fun _ => rfl)
    (fun p q => matmul_plain_zero none _ _ (ix2 p q))
    (fun p q => rowBroadcastTo_apply b2 h1 h2 p q)
    (fun _ => rfl)

/-- The whole-array form: host contractions, the bias laid along the second axis by two broadcasts, the zero a
    broadcast scalar constant. -/
theorem host_eq (x y : FVec Ideal ⟨2, ![M, 128]⟩ .f32) (W1 : FVec Ideal ⟨2, ![256, 128]⟩ .f32) (b1 : FVec Ideal ⟨1, ![128]⟩ .f32)
    (W2 : FVec Ideal ⟨2, ![128, 128]⟩ .f32) (b2 : FVec Ideal ⟨1, ![128]⟩ .f32)
    (hcat : Shape.Concatenates [(⟨2, ![M, 128]⟩ : Shape), ⟨2, ![M, 128]⟩] ⟨2, ![M, 256]⟩ 1)
    (h1 : (⟨1, ![128]⟩ : Shape).BroadcastsInDim ⟨2, ![1, 128]⟩ ![1]) (h2 : (⟨2, ![1, 128]⟩ : Shape).BroadcastsInDim ⟨2, ![M, 128]⟩ ![0, 1])
    (h0 : (⟨0, ![]⟩ : Shape).BroadcastsInDim ⟨2, ![M, 128]⟩ ![]) :
    addf (Host.dotGeneral (DotDims.plain M 128 128) none
        (maximumf (addf (Host.dotGeneral (DotDims.plain M 256 128) none
            (concatenate ⟨2, ![M, 256]⟩ 1 [⟨⟨2, ![M, 128]⟩, x⟩, ⟨⟨2, ![M, 128]⟩, y⟩] hcat) W1)
          (broadcastInDim ⟨2, ![M, 128]⟩ ![0, 1] h2 (broadcastInDim ⟨2, ![1, 128]⟩ ![1] h1 b1)))
          (broadcastInDim ⟨2, ![M, 128]⟩ ![] h0 (constant (F := Ideal) ⟨0, ![]⟩ .f32 0x00000000#32)))
        W2)
      (broadcastInDim ⟨2, ![M, 128]⟩ ![0, 1] h2 (broadcastInDim ⟨2, ![1, 128]⟩ ![1] h1 b2))
    = mlp x y W1 b1 W2 b2 := by
  refine of_parts x y W1 b1 W2 b2
    (cat := concatenate ⟨2, ![M, 256]⟩ 1 [⟨⟨2, ![M, 128]⟩, x⟩, ⟨⟨2, ![M, 128]⟩, y⟩] hcat)
    (P1 := Host.dotGeneral (DotDims.plain M 256 128) none
      (concatenate ⟨2, ![M, 256]⟩ 1 [⟨⟨2, ![M, 128]⟩, x⟩, ⟨⟨2, ![M, 128]⟩, y⟩] hcat) W1)
    (B1 := broadcastInDim ⟨2, ![M, 128]⟩ ![0, 1] h2 (broadcastInDim ⟨2, ![1, 128]⟩ ![1] h1 b1))
    (Z := broadcastInDim ⟨2, ![M, 128]⟩ ![] h0 (constant (F := Ideal) ⟨0, ![]⟩ .f32 0x00000000#32))
    (H := maximumf (addf (Host.dotGeneral (DotDims.plain M 256 128) none
        (concatenate ⟨2, ![M, 256]⟩ 1 [⟨⟨2, ![M, 128]⟩, x⟩, ⟨⟨2, ![M, 128]⟩, y⟩] hcat) W1)
      (broadcastInDim ⟨2, ![M, 128]⟩ ![0, 1] h2 (broadcastInDim ⟨2, ![1, 128]⟩ ![1] h1 b1)))
      (broadcastInDim ⟨2, ![M, 128]⟩ ![] h0 (constant (F := Ideal) ⟨0, ![]⟩ .f32 0x00000000#32)))
    (P2 := Host.dotGeneral (DotDims.plain M 128 128) none
      (maximumf (addf (Host.dotGeneral (DotDims.plain M 256 128) none
          (concatenate ⟨2, ![M, 256]⟩ 1 [⟨⟨2, ![M, 128]⟩, x⟩, ⟨⟨2, ![M, 128]⟩, y⟩] hcat) W1)
        (broadcastInDim ⟨2, ![M, 128]⟩ ![0, 1] h2 (broadcastInDim ⟨2, ![1, 128]⟩ ![1] h1 b1)))
        (broadcastInDim ⟨2, ![M, 128]⟩ ![] h0 (constant (F := Ideal) ⟨0, ![]⟩ .f32 0x00000000#32)))
      W2)
    (B2 := broadcastInDim ⟨2, ![M, 128]⟩ ![0, 1] h2 (broadcastInDim ⟨2, ![1, 128]⟩ ![1] h1 b2))
    (out := _) ?_ ?_ ?_ ?_ ?_ ?_ ?_ ?_
  · exact fun p l => concat_apply x y hcat p l
  · exact fun p k => dotGeneral_plain none .single _ W1 (ix2 p k)
  · exact fun p k => rowBroadcastInDim_apply b1 h1 h2 p k
  · intro j
    show Ideal.ofBits .f32 0x00000000#32 = 0
    exact Ideal.ofBits_zero_f32
  · exact fun _ => rfl
  · exact fun p q => dotGeneral_plain none .single _ W2 (ix2 p q)
  · exact fun p q => rowBroadcastInDim_apply b2 h1 h2 p q
  · exact fun _ => rfl

/-- The word 0x3F800000 is the number one. -/
theorem ofBits_one_f32 : Ideal.ofBits .f32 0x3F800000#32 = 1 := by
  simp [Ideal.ofBits, Ideal.ieee, -EReal.coe_mul]; norm_num

/-- Dividing by the all-ones array changes nothing, at every extended real. -/
theorem div_ones {s : Shape} (x : FVec Ideal s .f32) (h0 : (⟨0, ![]⟩ : Shape).BroadcastsInDim s ![]) :
    Host.divf x (broadcastInDim s ![] h0 (constant (F := Ideal) ⟨0, ![]⟩ .f32 0x3F800000#32)) = x := by
  funext i
  show Ideal.div (x i) (Ideal.ofBits .f32 0x3F800000#32) = x i
  rw [ofBits_one_f32]
  have := Ideal.div_coe (y := 1) one_ne_zero (x i)
  simpa using this

end Cert.TwoLayer

end
-- ==== Proof.EdgeLayer.lean ====
/-
  The first launch: every edge's row [gathered sender row | edge row] through the edge perceptron, 5000 rows a grid point.

  At grid point t the two row windows hold rows 5000·t … 5000·t + 4999 of their arrays and the four weight windows hold
  their whole arrays; the body stores the two-layer function of those blocks; the write-back puts it at rows
  5000·t … 5000·t + 4999 of the output. An output row of the two-layer function depends on the same row of the inputs
  only, so block t of the whole-array function is what point t writes, and the 125 blocks tile the 625000 rows.
-/
import proofs.«176255_j51874615001132_1_alg».proof.Proof.Gen.KernelIdeal.Frame
import proofs.«176255_j51874615001132_1_alg».proof.Proof.TwoLayer

set_option maxRecDepth 16384

noncomputable section

namespace Cert.KernelIdeal.EdgeLayer

open Cert.KernelIdeal Cert.KernelIdeal.Gen Cert.TwoLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The stored value is the two-layer function of the six loaded blocks. -/
theorem payload_eq (x0 x1 : Vec Ideal S5000x128 .f32) (x2 : Vec Ideal S256x128 .f32) (x3 : Vec Ideal S128 .f32)
    (x4 : Vec Ideal S128x128 .f32) (x5 : Vec Ideal S128 .f32) :
    k0_pay1 (F := Ideal) x0 x1 x2 x3 x4 x5 = mlp (M := 5000) x0 x1 x2 x3 x4 x5 := by
  unfold k0_pay1
  dsimp only
  rw [shapeCast_self]
  exact tile_eq x0 x1 x2 x3 x4 x5 concatenates_S5000x128_S5000x128_S5000x256_d1 bitsLt_bf16_f32 shapeCasts_S128_S1x128
    broadcasts_S1x128_S5000x128

/-- The printed index maps over the grid: the three row windows are at block t, the weight windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The first-layer weights' block is the whole array. -/
theorem wblock2 (c : Dev nD) (t : Fin cfg0.N) : iblk0 V c 2 t = V c main_arg3 := by
  obtain ⟨-, -, -, -, e20, e21, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega

/-- The first-layer bias's block is the whole array. -/
theorem wblock3 (c : Dev nD) (t : Fin cfg0.N) : iblk0 V c 3 t = V c main_arg4 := by
  obtain ⟨-, -, -, -, -, -, e30, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 1) * 128 + 1 * (y 0).val = (y 0).val; omega

/-- The second-layer weights' block is the whole array. -/
theorem wblock4 (c : Dev nD) (t : Fin cfg0.N) : iblk0 V c 4 t = V c main_arg5 := by
  obtain ⟨-, -, -, -, -, -, -, e40, e41, -⟩ := idx_facts t
  funext y
  show V c main_arg5 (((cfg0.win 4).blk t).view.emb y) = V c main_arg5 y
  refine congrArg (V c main_arg5) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second-layer bias's block is the whole array. -/
theorem wblock5 (c : Dev nD) (t : Fin cfg0.N) : iblk0 V c 5 t = V c main_arg6 := by
  obtain ⟨-, -, -, -, -, -, -, -, -, e50, -⟩ := idx_facts t
  funext y
  show V c main_arg6 (((cfg0.win 5).blk t).view.emb y) = V c main_arg6 y
  refine congrArg (V c main_arg6) (funext fun a => Fin.ext ?_)
  match a with
  | ⟨0, _⟩ => show win0_5.index t (0 : Fin 1) * 128 + 1 * (y 0).val = (y 0).val; omega

/-- Rows of a block are rows of the array: where the block's rows are rows tv·5000 + p of the arrays, the two-layer
    function of the blocks at (p, q) is the two-layer function of the arrays at (tv·5000 + p, q). -/
theorem block_rows (x y : S5000x128.Idx → EReal) (X Y : S625000x128.Idx → EReal)
    (W1 : S256x128.Idx → EReal) (b1 : S128.Idx → EReal) (W2 : S128x128.Idx → EReal) (b2 : S128.Idx → EReal)
    (tv : Nat) (ht : tv < 125)
    (hx : ∀ (p : Fin 5000) (l : Fin 128), x (ix2 p l) = X (ix2 (⟨tv * 5000 + p.val, by have := p.isLt; omega⟩ : Fin 625000) l))
    (hy : ∀ (p : Fin 5000) (l : Fin 128), y (ix2 p l) = Y (ix2 (⟨tv * 5000 + p.val, by have := p.isLt; omega⟩ : Fin 625000) l))
    (j : S5000x128.Idx) (i : S625000x128.Idx) (h0 : (i 0).val = tv * 5000 + (j 0).val) (h1 : (i 1).val = (j 1).val) :
    mlp (M := 5000) x y W1 b1 W2 b2 j = mlp (M := 625000) X Y W1 b1 W2 b2 i := by
  obtain ⟨p, q, rfl⟩ : ∃ (p : Fin 5000) (q : Fin 128), j = ix2 p q := ⟨j 0, j 1, eq_ix2 j⟩
  have hb : tv * 5000 + p.val < 625000 := by have := p.isLt; omega
  obtain ⟨r, q', rfl⟩ : ∃ (r : Fin 625000) (q' : Fin 128), i = ix2 r q' := ⟨i 0, i 1, eq_ix2 i⟩
  have hr : r = ⟨tv * 5000 + p.val, hb⟩ := Fin.ext h0
  have hq : q' = q := Fin.ext h1
  rw [hr, hq]
  exact mlp_rows x y X Y W1 b1 W2 b2 p ⟨tv * 5000 + p.val, hb⟩ q (hx p) (hy p)

/-- WHAT POINT t WRITES BACK is block t of the two-layer function of the arrays as the region finds them. -/
theorem flushed_eq (c : Dev nD) (t : Fin cfg0.N) :
    (dat0 V c).flushed 6 t = ((cfg0.win 6).blk t).view.read (Elt Ideal)
      (mlp (M := 625000) (V c main_v10) (V c main_arg1) (V c main_arg3) (V c main_arg4) (V c main_arg5) (V c main_arg6)) := by
  show (cfg0.win 6).cut (grid0.coords t) ((dat0 V c).after 6 t) = _
  rw [after0_6]
  unfold out0_6
  rw [View.canon_unit_zero zero2]
  simp only [View.ld_unit_zero (S := S5000x128) zero2, View.ld_unit_zero (S := S256x128) zero2,
    View.ld_unit_zero (S := S128x128) zero2, View.ld_unit_zero (S := S128) zero1]
  rw [payload_eq, wblock2, wblock3, wblock4, wblock5]
  obtain ⟨e00, e01, e10, e11, -, -, -, -, -, -, e60, e61⟩ := idx_facts t
  funext j
  refine block_rows (iblk0 V c 0 t) (iblk0 V c 1 t) (V c main_v10) (V c main_arg1) (V c main_arg3) (V c main_arg4)
    (V c main_arg5) (V c main_arg6) t.val t.isLt ?_ ?_ j (((cfg0.win 6).blk t).view.emb j) ?_ ?_
  · intro p l
    show V c main_v10 (((cfg0.win 0).blk t).view.emb (ix2 p l)) = _
    refine congrArg (V c main_v10) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * l.val = l.val; omega
  · intro p l
    show V c main_arg1 (((cfg0.win 1).blk t).view.emb (ix2 p l)) = _
    refine congrArg (V c main_arg1) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * l.val = l.val; omega
  · show win0_6.index t (0 : Fin 2) * 5000 + 1 * (j 0).val = t.val * 5000 + (j 0).val; omega
  · show win0_6.index t (1 : Fin 2) * 128 + 1 * (j 1).val = (j 1).val; omega

/-- An index of the output array is in point t's block iff each coordinate is in the block's range on its axis. -/
theorem mem_blk (t : Fin cfg0.N) (i : S625000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v11).slice (win0_6.rect t)).set ↔ _
  rw [View.set_slice_whole, Rect.mem_set_unit]
  exact Iff.rfl

/-- Every row of the output lies in the block of the point (row / 5000). -/
theorem cover (i : S625000x128.Idx) :
    ∃ t : Fin cfg0.N, (cfg0.win 6).flush t = true ∧ i ∈ ((cfg0.win 6).blk t).view.set := by
  have hi0 : (i 0).val < 625000 := (i 0).isLt
  have hi1 : (i 1).val < 128 := (i 1).isLt
  refine ⟨⟨(i 0).val / 5000, by show (i 0).val / 5000 < 125; omega⟩, flush0_6 _, ?_⟩
  obtain ⟨-, -, -, -, -, -, -, -, -, -, e60, e61⟩ := idx_facts ⟨(i 0).val / 5000, by show (i 0).val / 5000 < 125; omega⟩
  rw [mem_blk]
  intro a
  match a with
  | ⟨0, _⟩ =>
    show win0_6.index _ (0 : Fin 2) * 5000 ≤ (i 0).val ∧ (i 0).val < win0_6.index _ (0 : Fin 2) * 5000 + 5000
    rw [e60]
    show (i 0).val / 5000 * 5000 ≤ (i 0).val ∧ (i 0).val < (i 0).val / 5000 * 5000 + 5000
    omega
  | ⟨1, _⟩ =>
    show win0_6.index _ (1 : Fin 2) * 128 ≤ (i 1).val ∧ (i 1).val < win0_6.index _ (1 : Fin 2) * 128 + 128
    rw [e61]
    omega

/-- THE OUTPUT ARRAY after the region: the two-layer function of the arrays as the region finds them. -/
theorem final (c : Dev nD) :
    (dat0 V c).arrAt 6 cfg0.N
      = mlp (M := 625000) (V c main_v10) (V c main_arg1) (V c main_arg3) (V c main_arg4) (V c main_arg5) (V c main_arg6) :=
  (dat0 V c).arrAt_eq_of_cover 6 _ (fun t _ => flushed_eq V c t) cover

end Cert.KernelIdeal.EdgeLayer

end
-- ==== Proof.NodeLayer.lean ====
/-
  The second launch: every node's row [node row | aggregated messages row] through the node perceptron, 5000 rows a grid
  point.

  At grid point t the two row windows hold rows 5000·t … 5000·t + 4999 of the node array and of the aggregated array, the
  four weight windows their whole arrays; the body stores the two-layer function of those blocks and the write-back puts
  it at the same rows of the output. The ten blocks tile the 50000 rows, and a row of the two-layer function depends on
  that row of the inputs only, so the output array ends as the two-layer function of the arrays the region finds.
-/
import proofs.«176255_j51874615001132_1_alg».proof.Proof.Gen.KernelIdeal.Frame
import proofs.«176255_j51874615001132_1_alg».proof.Proof.TwoLayer

set_option maxRecDepth 16384

noncomputable section

namespace Cert.KernelIdeal.NodeLayer

open Cert.KernelIdeal Cert.KernelIdeal.Gen Cert.TwoLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The stored value is the two-layer function of the six loaded blocks. -/
theorem payload_eq (x0 x1 : Vec Ideal S5000x128 .f32) (x2 : Vec Ideal S256x128 .f32) (x3 : Vec Ideal S128 .f32)
    (x4 : Vec Ideal S128x128 .f32) (x5 : Vec Ideal S128 .f32) :
    k1_pay1 (F := Ideal) x0 x1 x2 x3 x4 x5 = mlp (M := 5000) x0 x1 x2 x3 x4 x5 := by
  unfold k1_pay1
  dsimp only
  rw [shapeCast_self]
  exact tile_eq x0 x1 x2 x3 x4 x5 concatenates_S5000x128_S5000x128_S5000x256_d1 bitsLt_bf16_f32 shapeCasts_S128_S1x128
    broadcasts_S1x128_S5000x128

/-- The printed index maps over the grid: the three row windows are at block t, the weight windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The first-layer weights' block is the whole array. -/
theorem wblock2 (c : Dev nD) (t : Fin cfg1.N) : iblk1 V c 2 t = V c main_arg7 := by
  obtain ⟨-, -, -, -, e20, e21, -⟩ := idx_facts t
  funext y
  show V c main_arg7 (((cfg1.win 2).blk t).view.emb y) = V c main_arg7 y
  refine congrArg (V c main_arg7) (funext fun a => Fin.ext ?_)
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- The first-layer bias's block is the whole array. -/
theorem wblock3 (c : Dev nD) (t : Fin cfg1.N) : iblk1 V c 3 t = V c main_arg8 := by
  obtain ⟨-, -, -, -, -, -, e30, -⟩ := idx_facts t
  funext y
  show V c main_arg8 (((cfg1.win 3).blk t).view.emb y) = V c main_arg8 y
  refine congrArg (V c main_arg8) (funext fun a => Fin.ext ?_)
  match a with
  | ⟨0, _⟩ => show win1_3.index t (0 : Fin 1) * 128 + 1 * (y 0).val = (y 0).val; omega

/-- The second-layer weights' block is the whole array. -/
theorem wblock4 (c : Dev nD) (t : Fin cfg1.N) : iblk1 V c 4 t = V c main_arg9 := by
  obtain ⟨-, -, -, -, -, -, -, e40, e41, -⟩ := idx_facts t
  funext y
  show V c main_arg9 (((cfg1.win 4).blk t).view.emb y) = V c main_arg9 y
  refine congrArg (V c main_arg9) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second-layer bias's block is the whole array. -/
theorem wblock5 (c : Dev nD) (t : Fin cfg1.N) : iblk1 V c 5 t = V c main_arg10 := by
  obtain ⟨-, -, -, -, -, -, -, -, -, e50, -⟩ := idx_facts t
  funext y
  show V c main_arg10 (((cfg1.win 5).blk t).view.emb y) = V c main_arg10 y
  refine congrArg (V c main_arg10) (funext fun a => Fin.ext ?_)
  match a with
  | ⟨0, _⟩ => show win1_5.index t (0 : Fin 1) * 128 + 1 * (y 0).val = (y 0).val; omega

/-- Rows of a block are rows of the array: where the block's rows are rows tv·5000 + p of the arrays, the two-layer
    function of the blocks at (p, q) is the two-layer function of the arrays at (tv·5000 + p, q). -/
theorem block_rows (x y : S5000x128.Idx → EReal) (X Y : S50000x128.Idx → EReal)
    (W1 : S256x128.Idx → EReal) (b1 : S128.Idx → EReal) (W2 : S128x128.Idx → EReal) (b2 : S128.Idx → EReal)
    (tv : Nat) (ht : tv < 10)
    (hx : ∀ (p : Fin 5000) (l : Fin 128), x (ix2 p l) = X (ix2 (⟨tv * 5000 + p.val, by have := p.isLt; omega⟩ : Fin 50000) l))
    (hy : ∀ (p : Fin 5000) (l : Fin 128), y (ix2 p l) = Y (ix2 (⟨tv * 5000 + p.val, by have := p.isLt; omega⟩ : Fin 50000) l))
    (j : S5000x128.Idx) (i : S50000x128.Idx) (h0 : (i 0).val = tv * 5000 + (j 0).val) (h1 : (i 1).val = (j 1).val) :
    mlp (M := 5000) x y W1 b1 W2 b2 j = mlp (M := 50000) X Y W1 b1 W2 b2 i := by
  obtain ⟨p, q, rfl⟩ : ∃ (p : Fin 5000) (q : Fin 128), j = ix2 p q := ⟨j 0, j 1, eq_ix2 j⟩
  have hb : tv * 5000 + p.val < 50000 := by have := p.isLt; omega
  obtain ⟨r, q', rfl⟩ : ∃ (r : Fin 50000) (q' : Fin 128), i = ix2 r q' := ⟨i 0, i 1, eq_ix2 i⟩
  have hr : r = ⟨tv * 5000 + p.val, hb⟩ := Fin.ext h0
  have hq : q' = q := Fin.ext h1
  rw [hr, hq]
  exact mlp_rows x y X Y W1 b1 W2 b2 p ⟨tv * 5000 + p.val, hb⟩ q (hx p) (hy p)

/-- WHAT POINT t WRITES BACK is block t of the two-layer function of the arrays as the region finds them. -/
theorem flushed_eq (c : Dev nD) (t : Fin cfg1.N) :
    (dat1 V c).flushed 6 t = ((cfg1.win 6).blk t).view.read (Elt Ideal)
      (mlp (M := 50000) (V c main_arg0) (V c main_v14) (V c main_arg7) (V c main_arg8) (V c main_arg9) (V c main_arg10)) := by
  show (cfg1.win 6).cut (grid1.coords t) ((dat1 V c).after 6 t) = _
  rw [after1_6]
  unfold out1_6
  rw [View.canon_unit_zero zero2]
  simp only [View.ld_unit_zero (S := S5000x128) zero2, View.ld_unit_zero (S := S256x128) zero2,
    View.ld_unit_zero (S := S128x128) zero2, View.ld_unit_zero (S := S128) zero1]
  rw [payload_eq, wblock2, wblock3, wblock4, wblock5]
  obtain ⟨e00, e01, e10, e11, -, -, -, -, -, -, e60, e61⟩ := idx_facts t
  funext j
  refine block_rows (iblk1 V c 0 t) (iblk1 V c 1 t) (V c main_arg0) (V c main_v14) (V c main_arg7) (V c main_arg8)
    (V c main_arg9) (V c main_arg10) t.val t.isLt ?_ ?_ j (((cfg1.win 6).blk t).view.emb j) ?_ ?_
  · intro p l
    show V c main_arg0 (((cfg1.win 0).blk t).view.emb (ix2 p l)) = _
    refine congrArg (V c main_arg0) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * l.val = l.val; omega
  · intro p l
    show V c main_v14 (((cfg1.win 1).blk t).view.emb (ix2 p l)) = _
    refine congrArg (V c main_v14) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * l.val = l.val; omega
  · show win1_6.index t (0 : Fin 2) * 5000 + 1 * (j 0).val = t.val * 5000 + (j 0).val; omega
  · show win1_6.index t (1 : Fin 2) * 128 + 1 * (j 1).val = (j 1).val; omega

/-- An index of the output array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v15).slice (win1_6.rect t)).set ↔ _
  rw [View.set_slice_whole, Rect.mem_set_unit]
  exact Iff.rfl

/-- Every row of the output lies in the block of the point (row / 5000). -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  refine ⟨⟨(i 0).val / 5000, by show (i 0).val / 5000 < 10; omega⟩, flush1_6 _, ?_⟩
  obtain ⟨-, -, -, -, -, -, -, -, -, -, e60, e61⟩ := idx_facts ⟨(i 0).val / 5000, by show (i 0).val / 5000 < 10; omega⟩
  rw [mem_blk]
  intro a
  match a with
  | ⟨0, _⟩ =>
    show win1_6.index _ (0 : Fin 2) * 5000 ≤ (i 0).val ∧ (i 0).val < win1_6.index _ (0 : Fin 2) * 5000 + 5000
    rw [e60]
    show (i 0).val / 5000 * 5000 ≤ (i 0).val ∧ (i 0).val < (i 0).val / 5000 * 5000 + 5000
    omega
  | ⟨1, _⟩ =>
    show win1_6.index _ (1 : Fin 2) * 128 ≤ (i 1).val ∧ (i 1).val < win1_6.index _ (1 : Fin 2) * 128 + 128
    rw [e61]
    omega

/-- THE OUTPUT ARRAY after the region: the two-layer function of the arrays as the region finds them. -/
theorem final (c : Dev nD) :
    (dat1 V c).arrAt 6 cfg1.N
      = mlp (M := 50000) (V c main_arg0) (V c main_v14) (V c main_arg7) (V c main_arg8) (V c main_arg9) (V c main_arg10) :=
  (dat1 V c).arrAt_eq_of_cover 6 _ (fun t _ => flushed_eq V c t) cover

end Cert.KernelIdeal.NodeLayer

end
-- ==== Proof.Fold.lean ====
/-
  What the idealized kernel's result array holds, as one function of the launch memory.

  The program is: gather the senders' node rows; the edge perceptron on [gathered | edge rows]; add each message into its
  receiver's row of a zero array; the node perceptron on [node rows | aggregated]. Reading the buffer contents at the
  segment boundaries backwards: the result is the second region's output, the two-layer function of the arrays that
  region finds; of those, the weights and the node rows are arguments nothing has written, and the aggregated array is
  the scatter-add of the first region's output, itself the two-layer function of the gathered rows, the edge rows and the
  first weights. The gather and the scatter-add are carried as the host's own operations, never opened.
-/
import proofs.«176255_j51874615001132_1_alg».proof.Proof.Gen.KernelIdeal.Frame
import proofs.«176255_j51874615001132_1_alg».proof.Proof.TwoLayer
import proofs.«176255_j51874615001132_1_alg».proof.Proof.EdgeLayer
import proofs.«176255_j51874615001132_1_alg».proof.Proof.NodeLayer
import proofs.«176255_j51874615001132_1_alg».proof.Proof.KernelRun
import Idealize.ShloMosaic.Lib.StableHlo.Run

set_option maxRecDepth 16384

noncomputable section

namespace Cert.KernelIdeal.Fold

open Cert.KernelIdeal Cert.KernelIdeal.Gen Cert.TwoLayer
open Idealize.ShloMosaic Idealize.ShloMosaic.TcCoe Idealize.ShloMosaic.ValueIdx Idealize.SL.Sem Idealize.ShloMosaic.StableHlo

/-- Row 0 of the edge index array as start indices of the gather: a negative index counted from the end. -/
def senderIdx (e : (⟨S2x625000, .i32⟩ : BufTy).Contents (Elt Ideal)) : (⟨S625000x1, .i32⟩ : BufTy).Contents (Elt Ideal) :=
  broadcastInDim S625000x1 ![0] bcast_S625000_S625000x1_0
    (select
      (cmpi .slt (shapeCast _ (extractStridedSlice S1x625000 ![0, 0] e slices_S2x625000_S1x625000_0_0) shapeCasts_S1x625000_S625000)
        (broadcastInDim S625000 ![] bcast_S_S625000 (constantI S_ 32 0#32)))
      (addi (shapeCast _ (extractStridedSlice S1x625000 ![0, 0] e slices_S2x625000_S1x625000_0_0) shapeCasts_S1x625000_S625000)
        (broadcastInDim S625000 ![] bcast_S_S625000 (constantI S_ 32 50000#32)))
      (shapeCast _ (extractStridedSlice S1x625000 ![0, 0] e slices_S2x625000_S1x625000_0_0) shapeCasts_S1x625000_S625000))

/-- Row 1 of the edge index array as the scatter's indices. -/
def receiverIdx (e : (⟨S2x625000, .i32⟩ : BufTy).Contents (Elt Ideal)) : (⟨S625000x1, .i32⟩ : BufTy).Contents (Elt Ideal) :=
  broadcastInDim S625000x1 ![0] bcast_S625000_S625000x1_0
    (shapeCast _ (extractStridedSlice S1x625000 ![1, 0] e slices_S2x625000_S1x625000_1_0) shapeCasts_S1x625000_S625000)

/-- The whole program's result from its eleven argument arrays. -/
def result (n : FVec Ideal S50000x128 .f32) (ed : FVec Ideal S625000x128 .f32) (e : (⟨S2x625000, .i32⟩ : BufTy).Contents (Elt Ideal))
    (W1 : FVec Ideal S256x128 .f32) (b1 : FVec Ideal S128 .f32) (W2 : FVec Ideal S128x128 .f32) (b2 : FVec Ideal S128 .f32)
    (U1 : FVec Ideal S256x128 .f32) (ub1 : FVec Ideal S128 .f32) (U2 : FVec Ideal S128x128 .f32) (ub2 : FVec Ideal S128 .f32) :
    FVec Ideal S50000x128 .f32 :=
  mlp (M := 50000) n
    (Host.scatterAdd scatter_S50000x128_S625000x1_S625000x128_1_0_0_1
      (broadcastInDim S50000x128 ![] bcast_S_S50000x128 (constant (F := Ideal) S_ .f32 0x00000000#32))
      (receiverIdx e)
      (mlp (M := 625000) (Host.gather gather_S50000x128_S625000x1_S625000x128_1_0_n_n_0_1_1128 n (senderIdx e)) ed W1 b1 W2 b2))
    U1 ub1 U2 ub2

variable (m : (ℓ : Loc nD τ sig) → Buf (Elt Ideal) ℓ) (ρ : Dev nD → PrngReg)

/-! ## The first host stretch: the gather's result, the receivers' row, the untouched arguments -/

theorem gathered (c : Dev nD) :
    W1 m ρ c (Proc.devRef .tc main_v10)
      = Host.gather gather_S50000x128_S625000x1_S625000x128_1_0_n_n_0_1_1128 (m ((c : Thread nD τ).loc main_arg0))
          (senderIdx (m ((c : Thread nD τ).loc main_arg2))) := by
  show StableHlo.after hostOps0 (W0 m ρ c) (Proc.devRef .tc main_v10) = _
  unfold senderIdx
  after_results
  rfl

theorem receivers (c : Dev nD) :
    W1 m ρ c (Proc.devRef .tc main_v3)
      = shapeCast _ (extractStridedSlice S1x625000 ![1, 0] (m ((c : Thread nD τ).loc main_arg2)) slices_S2x625000_S1x625000_1_0) shapeCasts_S1x625000_S625000 := by
  show StableHlo.after hostOps0 (W0 m ρ c) (Proc.devRef .tc main_v3) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results

/-! ## The first region's output -/

theorem messages (c : Dev nD) :
    W2 m ρ c (Proc.devRef .tc main_v11)
      = mlp (M := 625000)
          (Host.gather gather_S50000x128_S625000x1_S625000x128_1_0_n_n_0_1_1128 (m ((c : Thread nD τ).loc main_arg0))
            (senderIdx (m ((c : Thread nD τ).loc main_arg2))))
          (m ((c : Thread nD τ).loc main_arg1)) (m ((c : Thread nD τ).loc main_arg3)) (m ((c : Thread nD τ).loc main_arg4))
          (m ((c : Thread nD τ).loc main_arg5)) (m ((c : Thread nD τ).loc main_arg6)) := by
  refine ((W2_arr m ρ c 6).trans (EdgeLayer.final (V1 m ρ) c)).trans ?_
  show mlp (M := 625000) (W1 m ρ c (Proc.devRef .tc main_v10)) (W1 m ρ c (Proc.devRef .tc main_arg1))
    (W1 m ρ c (Proc.devRef .tc main_arg3)) (W1 m ρ c (Proc.devRef .tc main_arg4)) (W1 m ρ c (Proc.devRef .tc main_arg5))
    (W1 m ρ c (Proc.devRef .tc main_arg6)) = _
  rw [gathered, W1_arg1, W1_arg3, W1_arg4, W1_arg5, W1_arg6]

/-! ## The second host stretch: the aggregated array; the arguments the second region reads -/

theorem aggregated (c : Dev nD) :
    W3 m ρ c (Proc.devRef .tc main_v14)
      = Host.scatterAdd scatter_S50000x128_S625000x1_S625000x128_1_0_0_1
          (broadcastInDim S50000x128 ![] bcast_S_S50000x128 (constant (F := Ideal) S_ .f32 0x00000000#32))
          (broadcastInDim S625000x1 ![0] bcast_S625000_S625000x1_0 (W2 m ρ c (Proc.devRef .tc main_v3)))
          (W2 m ρ c (Proc.devRef .tc main_v11)) := by
  show StableHlo.after hostOps1 (W2 m ρ c) (Proc.devRef .tc main_v14) = _
  after_results

theorem W3_of_W2_arg0 (c : Dev nD) : W3 m ρ c (Proc.devRef .tc main_arg0) = W2 m ρ c (Proc.devRef .tc main_arg0) := by
  show StableHlo.after hostOps1 (W2 m ρ c) (Proc.devRef .tc main_arg0) = _
  after_results
theorem W3_of_W2_arg7 (c : Dev nD) : W3 m ρ c (Proc.devRef .tc main_arg7) = W2 m ρ c (Proc.devRef .tc main_arg7) := by
  show StableHlo.after hostOps1 (W2 m ρ c) (Proc.devRef .tc main_arg7) = _
  after_results
theorem W3_of_W2_arg8 (c : Dev nD) : W3 m ρ c (Proc.devRef .tc main_arg8) = W2 m ρ c (Proc.devRef .tc main_arg8) := by
  show StableHlo.after hostOps1 (W2 m ρ c) (Proc.devRef .tc main_arg8) = _
  after_results
theorem W3_of_W2_arg9 (c : Dev nD) : W3 m ρ c (Proc.devRef .tc main_arg9) = W2 m ρ c (Proc.devRef .tc main_arg9) := by
  show StableHlo.after hostOps1 (W2 m ρ c) (Proc.devRef .tc main_arg9) = _
  after_results
theorem W3_of_W2_arg10 (c : Dev nD) : W3 m ρ c (Proc.devRef .tc main_arg10) = W2 m ρ c (Proc.devRef .tc main_arg10) := by
  show StableHlo.after hostOps1 (W2 m ρ c) (Proc.devRef .tc main_arg10) = _
  after_results

/-- The arguments the second region reads are as launched: no host operation writes one and the first region's arrays
    are others. -/
theorem W3_arg0 (c : Dev nD) : W3 m ρ c (Proc.devRef .tc main_arg0) = m ((c : Thread nD τ).loc main_arg0) :=
  (W3_of_W2_arg0 m ρ c).trans ((W2_of_ne m ρ c main_arg0 (by decide)).trans (W1_arg0 m ρ c))
theorem W3_arg7 (c : Dev nD) : W3 m ρ c (Proc.devRef .tc main_arg7) = m ((c : Thread nD τ).loc main_arg7) :=
  (W3_of_W2_arg7 m ρ c).trans ((W2_of_ne m ρ c main_arg7 (by decide)).trans (W1_arg7 m ρ c))
theorem W3_arg8 (c : Dev nD) : W3 m ρ c (Proc.devRef .tc main_arg8) = m ((c : Thread nD τ).loc main_arg8) :=
  (W3_of_W2_arg8 m ρ c).trans ((W2_of_ne m ρ c main_arg8 (by decide)).trans (W1_arg8 m ρ c))
theorem W3_arg9 (c : Dev nD) : W3 m ρ c (Proc.devRef .tc main_arg9) = m ((c : Thread nD τ).loc main_arg9) :=
  (W3_of_W2_arg9 m ρ c).trans ((W2_of_ne m ρ c main_arg9 (by decide)).trans (W1_arg9 m ρ c))
theorem W3_arg10 (c : Dev nD) : W3 m ρ c (Proc.devRef .tc main_arg10) = m ((c : Thread nD τ).loc main_arg10) :=
  (W3_of_W2_arg10 m ρ c).trans ((W2_of_ne m ρ c main_arg10 (by decide)).trans (W1_arg10 m ρ c))

/-- The receivers' row is not an array of the first region: it leaves the region as it entered. -/
theorem receivers_kept (c : Dev nD) :
    W2 m ρ c (Proc.devRef .tc main_v3)
      = shapeCast _ (extractStridedSlice S1x625000 ![1, 0] (m ((c : Thread nD τ).loc main_arg2)) slices_S2x625000_S1x625000_1_0) shapeCasts_S1x625000_S625000 :=
  (W2_of_ne m ρ c main_v3 (by decide)).trans (receivers m ρ c)

/-! ## The result -/

/-- THE RESULT ARRAY at the last boundary is the program's function of the launch memory. -/
theorem value (c : Dev nD) :
    W4 m ρ c (Proc.devRef .tc main_v15)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine ((W4_arr m ρ c 6).trans (NodeLayer.final (V3 m ρ) c)).trans ?_
  show mlp (M := 50000) (W3 m ρ c (Proc.devRef .tc main_arg0)) (W3 m ρ c (Proc.devRef .tc main_v14))
    (W3 m ρ c (Proc.devRef .tc main_arg7)) (W3 m ρ c (Proc.devRef .tc main_arg8)) (W3 m ρ c (Proc.devRef .tc main_arg9))
    (W3 m ρ c (Proc.devRef .tc main_arg10)) = _
  unfold result receiverIdx
  rw [W3_arg0, W3_arg7, W3_arg8, W3_arg9, W3_arg10, aggregated, messages, receivers_kept]

/-- THE RUN: every weakly fair execution of the idealized kernel's @main terminates, nothing faulting, with the result
    array at the program's function of the launch memory and every argument array as launched. -/
theorem run : θ_run defs (onTc (τ := τ) (main (F := Ideal))) ⟨m, fun _ => 0, ρ⟩ (fun r => ∀ c : Dev nD,
      r.2.mem ((c.tc : Thread nD τ).loc main_v15)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (value m ρ c), (h c).2⟩) (ValueRun.run (F := Ideal) m ρ)

end Cert.KernelIdeal.Fold

end
-- ==== Proof.RefValue.lean ====
/-
  The reference's message chain divides the gathered rows by the all-ones array before joining them to the edge rows.
  Dividing by one changes no extended real, so that chain is the two-layer function of the undivided rows.
-/
import proofs.«176255_j51874615001132_1_alg».proof.Proof.TwoLayer

noncomputable section

namespace Cert.TwoLayer

open Idealize.ShloMosaic Idealize.ShloMosaic.ValueIdx

variable {M : Nat}

/-- The whole-array form with the first joined operand divided by the all-ones array. -/
theorem host_div_eq (x y : FVec Ideal ⟨2, ![M, 128]⟩ .f32) (W1 : FVec Ideal ⟨2, ![256, 128]⟩ .f32) (b1 : FVec Ideal ⟨1, ![128]⟩ .f32)
    (W2 : FVec Ideal ⟨2, ![128, 128]⟩ .f32) (b2 : FVec Ideal ⟨1, ![128]⟩ .f32)
    (hcat : Shape.Concatenates [(⟨2, ![M, 128]⟩ : Shape), ⟨2, ![M, 128]⟩] ⟨2, ![M, 256]⟩ 1)
    (h1 : (⟨1, ![128]⟩ : Shape).BroadcastsInDim ⟨2, ![1, 128]⟩ ![1]) (h2 : (⟨2, ![1, 128]⟩ : Shape).BroadcastsInDim ⟨2, ![M, 128]⟩ ![0, 1])
    (h0 : (⟨0, ![]⟩ : Shape).BroadcastsInDim ⟨2, ![M, 128]⟩ ![]) :
    addf (Host.dotGeneral (DotDims.plain M 128 128) none
        (maximumf (addf (Host.dotGeneral (DotDims.plain M 256 128) none
            (concatenate ⟨2, ![M, 256]⟩ 1
              [⟨⟨2, ![M, 128]⟩, Host.divf x (broadcastInDim ⟨2, ![M, 128]⟩ ![] h0 (constant (F := Ideal) ⟨0, ![]⟩ .f32 0x3F800000#32))⟩,
               ⟨⟨2, ![M, 128]⟩, y⟩] hcat) W1)
          (broadcastInDim ⟨2, ![M, 128]⟩ ![0, 1] h2 (broadcastInDim ⟨2, ![1, 128]⟩ ![1] h1 b1)))
          (broadcastInDim ⟨2, ![M, 128]⟩ ![] h0 (constant (F := Ideal) ⟨0, ![]⟩ .f32 0x00000000#32)))
        W2)
      (broadcastInDim ⟨2, ![M, 128]⟩ ![0, 1] h2 (broadcastInDim ⟨2, ![1, 128]⟩ ![1] h1 b2))
    = mlp x y W1 b1 W2 b2 := by
  rw [div_ones]
  exact host_eq x y W1 b1 W2 b2 hcat h1 h2 h0

end Cert.TwoLayer

end
-- ==== Proof.lean ====
/-
  A message-passing step of a graph network: gather each edge's sender row, an edge perceptron on [sender row | edge row],
  add every message into its receiver's row, a node perceptron on [node row | aggregated row]; the second result is the
  edge array returned as it came.

  The kernel's program does the two perceptrons in two tiled launches (5000 rows a grid point, bf16 operands into f32
  matrix products) and leaves the gather and the scatter-add to the host; the reference does everything on the host and
  divides the gathered rows by one. On the extended reals a change of format is the identity, a tiled matrix product
  into a zero accumulator and a host contraction are the same finite sum, a row of the two-layer function depends on the
  same row of its inputs only, and x / 1 = x; so both programs end with the same function of the arguments: the node
  two-layer function of the node rows and the scatter-add, over the receivers, of the edge two-layer function of the
  gathered rows and the edge rows. No step uses distributivity or cancellation, so finiteness of the inputs is not used.

  Both word-level and idealized kernel programs run to completion with their arguments unchanged (the launches' frames);
  the reference's run gives its frame and its result term; the ideal pass rewrote nothing.
-/
import proofs.«176255_j51874615001132_1_alg».proof.Defs
import proofs.«176255_j51874615001132_1_alg».proof.Proof.Gen.Kernel
import proofs.«176255_j51874615001132_1_alg».proof.Proof.Gen.Kernel.Frame
import proofs.«176255_j51874615001132_1_alg».proof.Proof.Gen.KernelIdeal
import proofs.«176255_j51874615001132_1_alg».proof.Proof.Gen.KernelIdeal.Frame
import proofs.«176255_j51874615001132_1_alg».proof.Proof.Gen.ReferenceIdeal
import proofs.«176255_j51874615001132_1_alg».proof.Proof.Gen.ReferenceIdeal.Run
import proofs.«176255_j51874615001132_1_alg».proof.Proof.Gen.Pre_finite_inputs
import proofs.«176255_j51874615001132_1_alg».proof.Proof.Fold
import proofs.«176255_j51874615001132_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates, nothing faulting, its arguments unchanged. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's run, its result term and its repeated second result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both programs end with the node two-layer function of the node rows and the
    scatter-add of the edge two-layer function of the gathered rows, and with the edge array as launched. -/
theorem algebraic : Cert.algebraic_KernelIdeal_ReferenceIdeal := by
  intro m ρ m' ρ' _ hagree
  refine ⟨_, _, Cert.KernelIdeal.Fold.run m ρ, ?_⟩
  refine (θ_run Cert.ReferenceIdeal.defs _ _).mono
    (fun r h c => ⟨(h c).1.trans ?_, (h c).2.1.trans (hagree c).2.1, (h c).2.2⟩)
    (Cert.ReferenceIdeal.Value.run (F := Ideal) m' ρ')
  -- the outer chain is the node two-layer function
  refine (Cert.TwoLayer.host_eq (M := 50000) _ _ _ _ _ _ _ _ _ _).trans ?_
  -- the inner chain, under the scatter-add, is the edge two-layer function of the undivided gathered rows
  refine (congrArg (fun u : FVec Ideal Cert.ReferenceIdeal.S625000x128 .f32 =>
      Cert.TwoLayer.mlp (M := 50000) _
        (Host.scatterAdd (F := Ideal) Cert.ReferenceIdeal.scatter_S50000x128_S625000x1_S625000x128_1_0_0_1 _ _ u) _ _ _ _)
    (Cert.TwoLayer.host_div_eq (M := 625000) _ _ _ _ _ _ _ _ _ _)).trans ?_
  -- the memories agree on the arguments; what is left differs in the two programs' names only
  obtain ⟨a0, a1, a2, a3, a4, a5, a6, a7, a8, a9, a10⟩ := hagree c
  rw [a0, a1, a2, a3, a4, a5, a6, a7, a8, a9, a10]
  unfold Cert.KernelIdeal.Fold.result Cert.KernelIdeal.Fold.receiverIdx Cert.KernelIdeal.Fold.senderIdx
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
